-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S160000 : Shape := ⟨1, ![160000]⟩
abbrev S1024x512 : Shape := ⟨2, ![1024, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S10000x512 .f32) (main_arg1 : IVec S160000 32) (main_arg2 : IVec S160000 32) (main_arg3 : FVec F S1024x512 .f32) (main_arg4 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S1024x512 .f32 := Host.absf main_arg3
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S10000x512 : Shape := ⟨2, ![10000, 512]⟩
abbrev S160000 : Shape := ⟨1, ![160000]⟩
abbrev S1024x512 : Shape := ⟨2, ![1024, 512]⟩
abbrev S512 : Shape := ⟨1, ![512]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S512x512 : Shape := ⟨2, ![512, 512]⟩
abbrev S1x512 : Shape := ⟨2, ![1, 512]⟩
abbrev S1000x512 : Shape := ⟨2, ![1000, 512]⟩
abbrev S1000x1 : Shape := ⟨2, ![1000, 1]⟩

abbrev nBuf : Space → Nat
  | .hbm => 39
  | .vmem => 11
  | .smem => 0
  | _ => 0

abbrev bufTy : (tb : Table) → Fin (tcTables nBuf tb) → BufTy
  | .hbm, ⟨0, _⟩ => ⟨S10000x512, .f32⟩
  | .hbm, ⟨1, _⟩ => ⟨S160000, .i32⟩
  | .hbm, ⟨2, _⟩ => ⟨S160000, .i32⟩
  | .hbm, ⟨3, _⟩ => ⟨S1024x512, .f32⟩
  | .hbm, ⟨4, _⟩ => ⟨S512, .f32⟩
  | .hbm, ⟨5, _⟩ => ⟨S10000x512, .bf16⟩
  | .hbm, ⟨6, _⟩ => ⟨S_, .i32⟩
  | .hbm, ⟨7, _⟩ => ⟨S160000, .i32⟩
  | .hbm, ⟨8, _⟩ => ⟨S160000, .i1⟩
  | .hbm, ⟨9, _⟩ => ⟨S_, .i32⟩
  | .hbm, ⟨10, _⟩ => ⟨S160000, .i32⟩
  | .hbm, ⟨11, _⟩ => ⟨S160000, .i32⟩
  | .hbm, ⟨12, _⟩ => ⟨S160000, .i32⟩
  | .hbm, ⟨13, _⟩ => ⟨S160000x1, .i32⟩
  | .hbm, ⟨14, _⟩ => ⟨S160000x512, .bf16⟩
  | .hbm, ⟨15, _⟩ => ⟨S160000x512, .f32⟩
  | .hbm, ⟨16, _⟩ => ⟨S_, .f32⟩
  | .hbm, ⟨17, _⟩ => ⟨S10000x512, .f32⟩
  | .hbm, ⟨18, _⟩ => ⟨S160000x1, .i32⟩
  | .hbm, ⟨19, _⟩ => ⟨S10000x512, .f32⟩
  | .hbm, ⟨20, _⟩ => ⟨S_, .f32⟩
  | .hbm, ⟨21, _⟩ => ⟨S160000, .f32⟩
  | .hbm, ⟨22, _⟩ => ⟨S_, .f32⟩
  | .hbm, ⟨23, _⟩ => ⟨S10000, .f32⟩
  | .hbm, ⟨24, _⟩ => ⟨S160000x1, .i32⟩
  | .hbm, ⟨25, _⟩ => ⟨S10000, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S10000x1, .f32⟩
  | .hbm, ⟨33, _⟩ => ⟨S512x512, .f32⟩
  | .hbm, ⟨34, _⟩ => ⟨S512x512, .bf16⟩
  | .hbm, ⟨35, _⟩ => ⟨S512x512, .f32⟩
  | .hbm, ⟨36, _⟩ => ⟨S512x512, .bf16⟩
  | .hbm, ⟨37, _⟩ => ⟨S1x512, .f32⟩
  | .hbm, ⟨38, _⟩ => ⟨S10000x512, .f32⟩
  | .local _ .vmem, ⟨0, _⟩ => ⟨S1000x512, .bf16⟩
  | .local _ .vmem, ⟨1, _⟩ => ⟨S1000x512, .bf16⟩
  | .local _ .vmem, ⟨2, _⟩ => ⟨S1000x512, .f32⟩
  | .local _ .vmem, ⟨3, _⟩ => ⟨S1000x512, .f32⟩
  | .local _ .vmem, ⟨4, _⟩ => ⟨S1000x1, .f32⟩
  | .local _ .vmem, ⟨5, _⟩ => ⟨S1000x1, .f32⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1000x512, .f32⟩
  | .local _ .vmem, ⟨10, _⟩ => ⟨S1000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  shapeCasts_S10000_S10000x1 : S10000.ShapeCasts S10000x1
  slices_S1024x512_S512x512_0_0 : S1024x512.Slices ![0, 0] S512x512
  slices_S1024x512_S512x512_512_0 : S1024x512.Slices ![512, 0] S512x512
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .bf16 = 32 ∨ (Rect.block (s := S10000x512) S1000x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S10000x512.size a
  hwx0_1 : ∀ i : grid0.Coords, EltTy.bits .f32 = 32 ∨ (Rect.block (s := S10000x512) S1000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S10000x1.size a
  hwx0_2 : ∀ i : grid0.Coords, EltTy.bits .f32 = 32 ∨ (Rect.block (s := S10000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x512.size a ≤ S10000x512.size a
  hwx0_6 : ∀ i : grid0.Coords, EltTy.bits .f32 = 32 ∨ (Rect.block (s := S10000x512) S1000x512.size (cc0_transform_6 i) (hinb0_6 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1000x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x512 : Shape := ⟨2, ![10000, 512]⟩
abbrev S160000 : Shape := ⟨1, ![160000]⟩
abbrev S1024x512 : Shape := ⟨2, ![1024, 512]⟩
abbrev S512 : Shape := ⟨1, ![512]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S10000x1024 : Shape := ⟨2, ![10000, 1024]⟩
abbrev S1x512 : Shape := ⟨2, ![1, 512]⟩

abbrev nBuf : Space → Nat
  | .hbm => 38
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S160000, .i32⟩
  | .hbm, ⟨2, _⟩ => ⟨S160000, .i32⟩
  | .hbm, ⟨3, _⟩ => ⟨S1024x512, .f32⟩
  | .hbm, ⟨4, _⟩ => ⟨S512, .f32⟩
  | .hbm, ⟨5, _⟩ => ⟨S_, .i32⟩
  | .hbm, ⟨6, _⟩ => ⟨S160000, .i32⟩
  | .hbm, ⟨7, _⟩ => ⟨S160000, .i1⟩
  | .hbm, ⟨8, _⟩ => ⟨S_, .i32⟩
  | .hbm, ⟨9, _⟩ => ⟨S160000, .i32⟩
  | .hbm, ⟨10, _⟩ => ⟨S160000, .i32⟩
  | .hbm, ⟨11, _⟩ => ⟨S160000, .i32⟩
  | .hbm, ⟨12, _⟩ => ⟨S160000x1, .i32⟩
  | .hbm, ⟨13, _⟩ => ⟨S160000x512, .f32⟩
  | .hbm, ⟨14, _⟩ => ⟨S_, .f32⟩
  | .hbm, ⟨15, _⟩ => ⟨S10000x512, .f32⟩
  | .hbm, ⟨16, _⟩ => ⟨S160000x1, .i32⟩
  | .hbm, ⟨17, _⟩ => ⟨S10000x512, .f32⟩
  | .hbm, ⟨18, _⟩ => ⟨S_, .f32⟩
  | .hbm, ⟨19, _⟩ => ⟨S160000, .f32⟩
  | .hbm, ⟨20, _⟩ => ⟨S_, .f32⟩
  | .hbm, ⟨21, _⟩ => ⟨S10000, .f32⟩
  | .hbm, ⟨22, _⟩ => ⟨S160000x1, .i32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x512, .f32⟩
  | .hbm, ⟨29, _⟩ => ⟨S10000x512, .f32⟩
  | .hbm, ⟨30, _⟩ => ⟨S10000x1024, .f32⟩
  | .hbm, ⟨31, _⟩ => ⟨S10000x512, .f32⟩
  | .hbm, ⟨32, _⟩ => ⟨S1x512, .f32⟩
  | .hbm, ⟨33, _⟩ => ⟨S10000x512, .f32⟩
  | .hbm, ⟨34, _⟩ => ⟨S10000x512, .f32⟩
  | .hbm, ⟨35, _⟩ => ⟨S_, .f32⟩
  | .hbm, ⟨36, _⟩ => ⟨S10000x512, .f32⟩
  | .hbm, ⟨37, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  concatenates_S10000x512_S10000x512_S10000x1024_d1 : Shape.Concatenates [S10000x512, S10000x512] S10000x1024 1
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x1024_S1024x512_S10000x512_1_0_0_1_n_n_wf : DotDims.WF S10000x1024 S1024x512 S10000x512 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x1024_S1024x512_S10000x512_1_0_0_1_n_n : DotDims S10000x1024 S1024x512 S10000x512 where
  lhsContracting := [1]
  rhsContracting := [0]
  lhsNonContracting := [0]
  rhsNonContracting := [1]
  lhsBatch := []
  rhsBatch := []
  wf := dot_S10000x1024_S1024x512_S10000x512_1_0_0_1_n_n_wf

class Facts : Prop extends Facts₀ where

variable [Facts]
-- ==== Proof.Spec.lean ====
/-
  The mathematics of one mean-aggregating graph layer, over plain arrays of extended reals.

  For node `r` and output column `c` the layer's value is
      max (Σ_{k<512} X[r,k]·W[k,c]  +  Σ_{k<512} (N[r,k]·R[r])·W[512+k,c]  +  B[c]) 0
  where `X` holds the nodes' own features, `N[r,·]` the sum of the features of `r`'s in-neighbours, `R[r]` the reciprocal of
  `r`'s in-degree clamped below at one, `W` the 1024×512 weight matrix (its upper half meets the node's own features, its
  lower half the neighbourhood mean) and `B` the bias.  Two facts join the tiled program to the plain one:
  a sum over 1024 contraction indices is the sum over its two halves, and multiplying by the reciprocal `1/d` of a
  NONZERO extended real is dividing by `d` — at the infinities too, since both sides are `x · d⁻¹`.
-/
import Idealize.ShloMosaic.PureOps.Ideal
import Idealize.ShloMosaic.PureOps.Ideal.Laws
import Idealize.ShloMosaic.Lib.ValueIdx
import Mathlib.Algebra.BigOperators.Fin

noncomputable section

namespace Cert.Sage

open Idealize.ShloMosaic Idealize.ShloMosaic.ValueIdx

/-- The layer's value at node `r`, column `c`: own features through the upper half of `W`, the scaled neighbour sum
    through the lower half, the bias, and the positive part. -/
def layerAt (X N : (⟨2, ![10000, 512]⟩ : Shape).Idx → EReal) (R : (⟨1, ![10000]⟩ : Shape).Idx → EReal)
    (W : (⟨2, ![1024, 512]⟩ : Shape).Idx → EReal) (B : (⟨1, ![512]⟩ : Shape).Idx → EReal) (r : Fin 10000) (c : Fin 512) : EReal :=
  max ((∑ k : Fin 512, X (ix2 r k) * W (ix2 (⟨k.val, by omega⟩ : Fin 1024) c)
      + ∑ k : Fin 512, (N (ix2 r k) * R (ix1 r)) * W (ix2 (⟨512 + k.val, by omega⟩ : Fin 1024) c))
      + B (ix1 c)) 0

/-- The layer as an array over nodes and columns. -/
def layer (X N : (⟨2, ![10000, 512]⟩ : Shape).Idx → EReal) (R : (⟨1, ![10000]⟩ : Shape).Idx → EReal)
    (W : (⟨2, ![1024, 512]⟩ : Shape).Idx → EReal) (B : (⟨1, ![512]⟩ : Shape).Idx → EReal) :
    (⟨2, ![10000, 512]⟩ : Shape).Idx → EReal :=
  fun i => layerAt X N R W B (i 0) (i 1)

theorem layer_ix2 (X N : (⟨2, ![10000, 512]⟩ : Shape).Idx → EReal) (R : (⟨1, ![10000]⟩ : Shape).Idx → EReal)
    (W : (⟨2, ![1024, 512]⟩ : Shape).Idx → EReal) (B : (⟨1, ![512]⟩ : Shape).Idx → EReal) (r : Fin 10000) (c : Fin 512) :
    layer X N R W B (ix2 r c) = layerAt X N R W B r c := rfl

/-- A sum over 1024 indices is the sum over the first 512 plus the sum over the last 512. -/
theorem sum_halves {M : Type*} [AddCommMonoid M] (f : Fin 1024 → M) :
    ∑ k : Fin 1024, f k = ∑ k : Fin 512, f ⟨k.val, by omega⟩ + ∑ k : Fin 512, f ⟨512 + k.val, by omega⟩ := by
  have h : (512 + 512 : ℕ) = 1024 := rfl
  calc ∑ k : Fin 1024, f k = ∑ i : Fin (512 + 512), f (finCongr h i) :=
        (Fintype.sum_equiv (finCongr h) (fun i => f (finCongr h i)) f (fun _ => rfl)).symm
    _ = ∑ i : Fin 512, f (finCongr h (Fin.castAdd 512 i)) + ∑ i : Fin 512, f (finCongr h (Fin.natAdd 512 i)) :=
        Fin.sum_univ_add _
    _ = _ := congrArg₂ (· + ·) (Finset.sum_congr rfl fun k _ => rfl) (Finset.sum_congr rfl fun k _ => rfl)

/-- The single-precision pattern of one denotes the real one. -/
theorem ofBits_one_f32 : Ideal.ofBits .f32 0x3F800000#32 = 1 := by
  simp [Ideal.ofBits, Ideal.ieee]
  first
    | exact_mod_cast (by norm_num : (8388608 : ℝ) * (2 ^ 23)⁻¹ = 1)
    | (rw [← EReal.coe_mul, ← EReal.coe_one]; norm_num)
    | norm_num

/-- A degree clamped below at one is not zero. -/
theorem clamp_ne_zero (d : EReal) : max d (Ideal.ofBits .f32 0x3F800000#32) ≠ 0 := by
  rw [ofBits_one_f32]
  have h01 : (0 : EReal) < 1 := by
    first
      | exact zero_lt_one
      | exact_mod_cast (zero_lt_one : (0 : ℝ) < 1)
  exact ne_of_gt (lt_of_lt_of_le h01 (le_max_right d 1))

/-- Times the reciprocal of a nonzero extended real is the quotient by it: both are `x · d⁻¹`. -/
theorem mul_recip (x d : EReal) (hd : d ≠ 0) :
    x * Ideal.div (Ideal.ofBits .f32 0x3F800000#32) d = Ideal.div x d := by
  rw [ofBits_one_f32, Ideal.div, Ideal.div, if_neg hd, if_neg hd, one_mul]

end Cert.Sage

end
-- ==== Proof.BlockOps.lean ====
/-
  One tile of the layer, entry by entry.

  The tiled program works on 1000 nodes at a time.  From a tile's blocks — the nodes' own features `x` [1000,512], their
  neighbour sums `n` [1000,512], the reciprocal clamped degrees `r` [1000,1], the two 512×512 halves `wa`, `wb` of the
  weight matrix and the bias row `b` [1,512] — it forms
      max (x·wa + (n ∘ r)·wb + b) 0,
  where `n ∘ r` scales row `p` of `n` by `r[p]`.  Over the extended reals a change of float format is the identity and
  a matrix product into a zero accumulator is the plain sum over the 512 contraction indices, so entry `(p, q)` is
      max (Σ_k x[p,k]·wa[k,q] + Σ_k (n[p,k]·r[p,0])·wb[k,q] + b[0,q]) 0.
-/
import proofs.«411510_j28991029248362_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Tile

open Cert.KernelIdeal Cert.KernelIdeal.Gen Idealize.ShloMosaic Idealize.ShloMosaic.ValueIdx

/-! ## A column broadcast along the rows -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The tile's matrix product at an entry -/

theorem lhs_tiledot_0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_tiledot_1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
theorem rhs_tiledot_0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
theorem rhs_tiledot_1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- A [1000,512] × [512,512] product into the zero accumulator, at entry `(p, q)`: the sum over the 512 contraction
    indices of the left row's entries times the right column's. -/
theorem tiledot_apply (l : FVec Ideal S1000x512 .bf16) (r : FVec Ideal S512x512 .bf16) (p : Fin 1000) (q : Fin 512) :
    matmul dot_S1000x512_S512x512_S1000x512_1_0_0_1_n_n none l r (constant (F := Ideal) S1000x512 .f32 0x00000000#32) (ix2 p q)
      = ∑ k : Fin 512, l (ix2 p k) * r (ix2 k q) := by
  simp only [matmul]
  rw [Ideal.matmul_constant_zero_apply, ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 p q) ((contrEquiv1 dot_S1000x512_S512x512_S1000x512_1_0_0_1_n_n 512 rfl rfl).symm k) = ix2 p k := funext fun a => Fin.ext (by
    match a with
    | ⟨0, _⟩ => exact lhs_tiledot_0 _ _
    | ⟨1, _⟩ => exact (lhs_tiledot_1 _ _).trans hk)
  have er : dot_S1000x512_S512x512_S1000x512_1_0_0_1_n_n.rhsIdx (ix2 p q) ((contrEquiv1 dot_S1000x512_S512x512_S1000x512_1_0_0_1_n_n 512 rfl rfl).symm k) = ix2 k q := funext fun a => Fin.ext (by
    match a with
    | ⟨0, _⟩ => exact (rhs_tiledot_0 _ _).trans hk
    | ⟨1, _⟩ => exact rhs_tiledot_1 _ _)
  rw [el, er]

/-! ## The tile's value at an entry -/

/-- Entry `(p, q)` of what the body stores, from the six loaded blocks. -/
theorem tile_apply (x : FVec Ideal S1000x512 .bf16) (n : FVec Ideal S1000x512 .f32) (r : FVec Ideal S1000x1 .f32)
    (wa wb : FVec Ideal S512x512 .bf16) (b : FVec Ideal S1x512 .f32) (p : Fin 1000) (q : Fin 512) :
    k0_pay1 (F := Ideal) x n r wa wb b (ix2 p q)
      = max ((∑ k : Fin 512, x (ix2 p k) * wa (ix2 k q)
          + ∑ k : Fin 512, (n (ix2 p k) * r (ix2 p (0 : Fin 1))) * wb (ix2 k q)) + b (ix2 (0 : Fin 1) q)) 0 := by
  unfold k0_pay1
  simp only [shapeCast_self]
  rw [maximumf_apply, addf_apply, addf_apply, tiledot_apply, tiledot_apply, broadcastTo_1b_ab_apply, broadcast_apply]
  refine congrArg₂ max (congrArg₂ (· + ·) (congrArg₂ (· + ·) rfl (Finset.sum_congr rfl fun k _ => ?_)) rfl) ?_
  · rw [truncf_apply, mulf_apply, broadcastTo_a1_ab_apply]
  · exact Ideal.ofBits_zero_f32

end Cert.Sage.Tile

end
-- ==== Proof.Prologue.lean ====
/-
  The arrays the tiled program prepares on whole arrays before its grid starts, as functions of the arguments:
  the source indices with negatives wrapped by the node count, as a column; `neigh`, the (narrowed, gathered, widened)
  feature rows of the edges' sources summed onto the edges' destinations; `degClamp`, the in-degrees (a one per edge
  summed onto its destination) clamped below at one; `recipRow`, one over that.
-/
import proofs.«411510_j28991029248362_3_alg».proof.Proof.Gen.KernelIdeal

noncomputable section

namespace Cert.Sage.Entry

open Cert.KernelIdeal Cert.KernelIdeal.Gen Idealize.ShloMosaic

variable {F : FTy → Type} [FloatOps F]

/-! ## The prologue's arrays, as functions of the arguments -/

/-- The source indices, a negative one wrapped by the node count, as a column. -/
def srcCol (x1 : (⟨S160000, .i32⟩ : BufTy).Contents (Elt F)) : (⟨S160000x1, .i32⟩ : BufTy).Contents (Elt F) :=
  broadcastInDim S160000x1 ![0] bcast_S160000_S160000x1_0
    (select (cmpi .slt x1 (broadcastInDim S160000 ![] bcast_S_S160000 (constantI S_ 32 0#32)))
      (addi x1 (broadcastInDim S160000 ![] bcast_S_S160000 (constantI S_ 32 10000#32))) x1)

/-- The neighbour sums: the source rows of the (narrowed, then widened) features, added onto the destination rows. -/
def neigh (x0 : (⟨S10000x512, .f32⟩ : BufTy).Contents (Elt F)) (x1 x2 : (⟨S160000, .i32⟩ : BufTy).Contents (Elt F)) :
    (⟨S10000x512, .f32⟩ : BufTy).Contents (Elt F) :=
  Host.scatterAdd scatter_S10000x512_S160000x1_S160000x512_1_0_0_1
    (broadcastInDim S10000x512 ![] bcast_S_S10000x512 (constant (F := F) S_ .f32 0x00000000#32))
    (broadcastInDim S160000x1 ![0] bcast_S160000_S160000x1_0 x2)
    (extf .f32 (Host.gather gather_S10000x512_S160000x1_S160000x512_1_0_n_n_0_1_1512 (truncf .bf16 x0 bitsLt_bf16_f32) (srcCol (F := F) x1) :
      (⟨S160000x512, .bf16⟩ : BufTy).Contents (Elt F)) bitsLt_bf16_f32)

/-- The in-degrees (a one added onto each edge's destination) clamped below at one. -/
def degClamp (x2 : (⟨S160000, .i32⟩ : BufTy).Contents (Elt F)) : (⟨S10000, .f32⟩ : BufTy).Contents (Elt F) :=
  maximumf
    (Host.scatterAdd scatter_S10000_S160000x1_S160000_n_0_0_1
      (broadcastInDim S10000 ![] bcast_S_S10000 (constant (F := F) S_ .f32 0x00000000#32))
      (broadcastInDim S160000x1 ![0] bcast_S160000_S160000x1_0 x2)
      (broadcastInDim S160000 ![] bcast_S_S160000 (constant (F := F) S_ .f32 0x3F800000#32)))
    (broadcastInDim S10000 ![] bcast_S_S10000 (constant (F := F) S_ .f32 0x3F800000#32))

/-- One over the clamped in-degree, per node. -/
def recipRow (x2 : (⟨S160000, .i32⟩ : BufTy).Contents (Elt F)) : (⟨S10000, .f32⟩ : BufTy).Contents (Elt F) :=
  Host.divf (broadcastInDim S10000 ![] bcast_S_S10000 (constant (F := F) S_ .f32 0x3F800000#32)) (degClamp (F := F) x2)

end Cert.Sage.Entry

end
-- ==== Proof.Entry.lean ====
/-
  What the grid's six input windows' arrays hold when the grid starts: the features in the narrow float format, the
  neighbour sums, the reciprocal clamped degrees as a column, the two halves of the weight matrix in the narrow format,
  and the bias as a row — each the prologue's function of the five arguments, read off the host operations in order.
-/
import proofs.«411510_j28991029248362_3_alg».proof.Proof.Gen.KernelIdeal.Frame
import proofs.«411510_j28991029248362_3_alg».proof.Proof.Prologue
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Entry

open Cert.KernelIdeal Cert.KernelIdeal.Gen Idealize.ShloMosaic Idealize.ShloMosaic.ValueIdx Idealize.ShloMosaic.TcCoe
open Idealize.SL.Sem Idealize.ShloMosaic.StableHlo

variable {F : FTy → Type} [FloatOps F]

/-! ## What the six input windows' arrays hold when the grid starts -/

variable (m : (ℓ : Loc nD τ sig) → Buf (Elt F) ℓ)

theorem entry_feat (c : Dev nD) :
    (V m c main_v0 : (⟨S10000x512, .bf16⟩ : BufTy).Contents (Elt F))
      = truncf .bf16 (m ((c : Thread nD τ).loc main_arg0)) bitsLt_bf16_f32 := by
  first
    | (dsimp only [V, hostOps0]; after_results; rfl)
    | (dsimp only [V, hostOps0]; after_results_simp <;> rfl)

theorem entry_neigh (c : Dev nD) :
    (V m c main_v11 : (⟨S10000x512, .f32⟩ : BufTy).Contents (Elt F))
      = neigh (F := F) (m ((c : Thread nD τ).loc main_arg0)) (m ((c : Thread nD τ).loc main_arg1)) (m ((c : Thread nD τ).loc main_arg2)) := by
  first
    | (dsimp only [V, hostOps0]; after_results; rfl)
    | (dsimp only [V, hostOps0]; after_results_simp <;> rfl)

theorem entry_recip (c : Dev nD) :
    (V m c main_v20 : (⟨S10000x1, .f32⟩ : BufTy).Contents (Elt F))
      = shapeCast S10000x1 (recipRow (F := F) (m ((c : Thread nD τ).loc main_arg2))) shapeCasts_S10000_S10000x1 := by
  first
    | (dsimp only [V, hostOps0]; after_results; rfl)
    | (dsimp only [V, hostOps0]; after_results_simp <;> rfl)

theorem entry_wtop (c : Dev nD) :
    (V m c main_v22 : (⟨S512x512, .bf16⟩ : BufTy).Contents (Elt F))
      = truncf .bf16 (extractStridedSlice S512x512 ![0, 0] (m ((c : Thread nD τ).loc main_arg3)) slices_S1024x512_S512x512_0_0) bitsLt_bf16_f32 := by
  first
    | (dsimp only [V, hostOps0]; after_results; rfl)
    | (dsimp only [V, hostOps0]; after_results_simp <;> rfl)

theorem entry_wbot (c : Dev nD) :
    (V m c main_v24 : (⟨S512x512, .bf16⟩ : BufTy).Contents (Elt F))
      = truncf .bf16 (extractStridedSlice S512x512 ![512, 0] (m ((c : Thread nD τ).loc main_arg3)) slices_S1024x512_S512x512_512_0) bitsLt_bf16_f32 := by
  first
    | (dsimp only [V, hostOps0]; after_results; rfl)
    | (dsimp only [V, hostOps0]; after_results_simp <;> rfl)

theorem entry_bias (c : Dev nD) :
    (V m c main_v25 : (⟨S1x512, .f32⟩ : BufTy).Contents (Elt F))
      = shapeCast S1x512 (m ((c : Thread nD τ).loc main_arg4)) shapeCasts_S512_S1x512 := by
  first
    | (dsimp only [V, hostOps0]; after_results; rfl)
    | (dsimp only [V, hostOps0]; after_results_simp <;> rfl)

end Cert.Sage.Entry

end
-- ==== Proof.KernelValue.lean ====
/-
  The tiled program's result array, as one function of the arguments.

  Grid point `t` (of ten) handles nodes `1000·t … 1000·t + 999`: its blocks of the features, the neighbour sums and the
  reciprocal degrees are rows `1000·t + p` of those arrays, while the weight halves and the bias are the same whole
  arrays at every point.  Reading the tile's entry `(p, q)` through those blocks gives the layer's value at node
  `1000·t + p`, column `q`; the ten output blocks tile the [10000, 512] result, so after the run the result array is
  the layer of the arguments, everywhere.
-/
import proofs.«411510_j28991029248362_3_alg».proof.Proof.Gen.KernelIdeal.Value
import proofs.«411510_j28991029248362_3_alg».proof.Proof.Spec
import proofs.«411510_j28991029248362_3_alg».proof.Proof.BlockOps
import proofs.«411510_j28991029248362_3_alg».proof.Proof.Entry

noncomputable section

namespace Cert.Sage.Tiled

open Cert.KernelIdeal Cert.KernelIdeal.Gen Idealize.ShloMosaic Idealize.ShloMosaic.ValueIdx Idealize.ShloMosaic.TcCoe
open Idealize.SL.Sem
open Idealize.ShloMosaic.Pipeline (Dat)
open Cert.Sage Cert.Sage.Entry Cert.Sage.Tile

variable (m : (ℓ : Loc nD τ sig) → Buf (Elt Ideal) ℓ) (ρ : Dev nD → PrngReg)

/-! ## The arguments, and the result they determine -/

abbrev argX (c : Dev nD) : FVec Ideal S10000x512 .f32 := m ((c : Thread nD τ).loc main_arg0)
abbrev argSrc (c : Dev nD) : IVec S160000 32 := m ((c : Thread nD τ).loc main_arg1)
abbrev argDst (c : Dev nD) : IVec S160000 32 := m ((c : Thread nD τ).loc main_arg2)
abbrev argW (c : Dev nD) : FVec Ideal S1024x512 .f32 := m ((c : Thread nD τ).loc main_arg3)
abbrev argB (c : Dev nD) : FVec Ideal S512 .f32 := m ((c : Thread nD τ).loc main_arg4)

/-- The layer of the arguments: own features, neighbour sums, reciprocal clamped degrees, weights, bias. -/
def result (c : Dev nD) : FVec Ideal S10000x512 .f32 :=
  layer (argX m c) (neigh (F := Ideal) (argX m c) (argSrc m c) (argDst m c)) (recipRow (F := Ideal) (argDst m c)) (argW m c) (argB m c)

/-! ## Where each window's block sits in its array -/

/-- The printed index maps over the ten grid points: the row-blocked windows are at block row `t`, the whole-array
    windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The input blocks read at an entry -/

/-- The feature block's entry `(p, k)` at point `t` is the features' entry of node `r = 1000·t + p`. -/
theorem read_x (c : Dev nD) (t : Fin cfg0.N) (p : Fin 1000) (k : Fin 512) (r : Fin 10000) (hr : r.val = t.val * 1000 + p.val) :
    iblk m c 0 t (ix2 p k) = argX m c (ix2 r k) := by
  unfold iblk
  rw [View.read_apply]
  show V m c main_v0 (((cfg0.win 0).blk t).view.emb (ix2 p k)) = _
  rw [entry_feat]
  show argX m c _ = argX m c _
  refine congrArg (argX m c) (funext fun a => Fin.ext ?_)
  obtain ⟨e0, e1, -⟩ := idx_facts t
  match a with
  | ⟨0, _⟩ => show win0_0.index t (0 : Fin 2) * 1000 + 1 * p.val = r.val; omega
  | ⟨1, _⟩ => show win0_0.index t (1 : Fin 2) * 512 + 1 * k.val = k.val; omega

/-- The neighbour-sum block's entry `(p, k)` at point `t` is the neighbour sums' entry of node `r`. -/
theorem read_n (c : Dev nD) (t : Fin cfg0.N) (p : Fin 1000) (k : Fin 512) (r : Fin 10000) (hr : r.val = t.val * 1000 + p.val) :
    iblk m c 1 t (ix2 p k) = neigh (F := Ideal) (argX m c) (argSrc m c) (argDst m c) (ix2 r k) := by
  unfold iblk
  rw [View.read_apply]
  show V m c main_v11 (((cfg0.win 1).blk t).view.emb (ix2 p k)) = _
  rw [entry_neigh]
  refine congrArg (neigh (F := Ideal) (argX m c) (argSrc m c) (argDst m c)) (funext fun a => Fin.ext ?_)
  obtain ⟨-, -, e0, e1, -⟩ := idx_facts t
  match a with
  | ⟨0, _⟩ => show win0_1.index t (0 : Fin 2) * 1000 + 1 * p.val = r.val; omega
  | ⟨1, _⟩ => show win0_1.index t (1 : Fin 2) * 512 + 1 * k.val = k.val; omega

/-- The reciprocal-degree block's entry `(p, 0)` at point `t` is node `r`'s reciprocal clamped degree. -/
theorem read_r (c : Dev nD) (t : Fin cfg0.N) (p : Fin 1000) (r : Fin 10000) (hr : r.val = t.val * 1000 + p.val) :
    iblk m c 2 t (ix2 p (0 : Fin 1)) = recipRow (F := Ideal) (argDst m c) (ix1 r) := by
  unfold iblk
  rw [View.read_apply]
  show V m c main_v20 (((cfg0.win 2).blk t).view.emb (ix2 p (0 : Fin 1))) = _
  rw [entry_recip]
  refine shapeCast_apply _ _ _ (ix1 r) ?_
  obtain ⟨-, -, -, -, e0, e1, -⟩ := idx_facts t
  rw [Shape.rowMajor_val_one, Shape.rowMajor_val_two]
  show r.val = (win0_2.index t (0 : Fin 2) * 1000 + 1 * p.val) * 1 + (win0_2.index t (1 : Fin 2) * 1 + 1 * 0)
  omega

/-- The upper weight half's entry `(k, q)` is the weights' entry `(k, q)`. -/
theorem read_wa (c : Dev nD) (t : Fin cfg0.N) (k q : Fin 512) :
    iblk m c 3 t (ix2 k q) = argW m c (ix2 (⟨k.val, by omega⟩ : Fin 1024) q) := by
  unfold iblk
  rw [View.read_apply]
  show V m c main_v22 (((cfg0.win 3).blk t).view.emb (ix2 k q)) = _
  rw [entry_wtop]
  obtain ⟨-, -, -, -, -, -, e0, e1, -⟩ := idx_facts t
  have he : ((cfg0.win 3).blk t).view.emb (ix2 k q) = ix2 k q := funext fun a => Fin.ext (by
    match a with
    | ⟨0, _⟩ => show win0_3.index t (0 : Fin 2) * 512 + 1 * k.val = k.val; omega
    | ⟨1, _⟩ => show win0_3.index t (1 : Fin 2) * 512 + 1 * q.val = q.val; omega)
  rw [he]
  show extractStridedSlice S512x512 ![0, 0] (argW m c) slices_S1024x512_S512x512_0_0 (ix2 k q) = _
  exact slice2_axis0_apply 0 (argW m c) slices_S1024x512_S512x512_0_0 k q ⟨k.val, by omega⟩ (by show k.val = 0 + k.val; omega)

/-- The lower weight half's entry `(k, q)` is the weights' entry `(512 + k, q)`. -/
theorem read_wb (c : Dev nD) (t : Fin cfg0.N) (k q : Fin 512) :
    iblk m c 4 t (ix2 k q) = argW m c (ix2 (⟨512 + k.val, by omega⟩ : Fin 1024) q) := by
  unfold iblk
  rw [View.read_apply]
  show V m c main_v24 (((cfg0.win 4).blk t).view.emb (ix2 k q)) = _
  rw [entry_wbot]
  obtain ⟨-, -, -, -, -, -, -, -, e0, e1, -⟩ := idx_facts t
  have he : ((cfg0.win 4).blk t).view.emb (ix2 k q) = ix2 k q := funext fun a => Fin.ext (by
    match a with
    | ⟨0, _⟩ => show win0_4.index t (0 : Fin 2) * 512 + 1 * k.val = k.val; omega
    | ⟨1, _⟩ => show win0_4.index t (1 : Fin 2) * 512 + 1 * q.val = q.val; omega)
  rw [he]
  show extractStridedSlice S512x512 ![512, 0] (argW m c) slices_S1024x512_S512x512_512_0 (ix2 k q) = _
  exact slice2_axis0_apply 512 (argW m c) slices_S1024x512_S512x512_512_0 k q ⟨512 + k.val, by omega⟩ rfl

/-- The bias row's entry `(0, q)` is the bias' entry `q`. -/
theorem read_b (c : Dev nD) (t : Fin cfg0.N) (q : Fin 512) :
    iblk m c 5 t (ix2 (0 : Fin 1) q) = argB m c (ix1 q) := by
  unfold iblk
  rw [View.read_apply]
  show V m c main_v25 (((cfg0.win 5).blk t).view.emb (ix2 (0 : Fin 1) q)) = _
  rw [entry_bias]
  obtain ⟨-, -, -, -, -, -, -, -, -, -, e0, e1, -⟩ := idx_facts t
  have he : ((cfg0.win 5).blk t).view.emb (ix2 (0 : Fin 1) q) = ix2 (0 : Fin 1) q := funext fun a => Fin.ext (by
    match a with
    | ⟨0, _⟩ => show win0_5.index t (0 : Fin 2) * 1 + 1 * 0 = 0; omega
    | ⟨1, _⟩ => show win0_5.index t (1 : Fin 2) * 512 + 1 * q.val = q.val; omega)
  rw [he]
  show shapeCast S1x512 (argB m c) shapeCasts_S512_S1x512 (ix2 (0 : Fin 1) q) = _
  exact shapeCast_a_1a_apply (argB m c) shapeCasts_S512_S1x512 (0 : Fin 1) q

/-! ## What a point writes back, and the whole array -/

theorem hz : (![0, 0] : Fin 2 → Nat) = fun _ => 0 := funext fun a => by fin_cases a <;> rfl

/-- Point `t` writes back block `t` of the layer of the arguments. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz]
  simp only [View.ld_unit_zero (S := S1000x512) hz, View.ld_unit_zero (S := S1000x1) hz, View.ld_unit_zero (S := S512x512) hz,
    View.ld_unit_zero (S := S1x512) hz]
  funext j
  obtain ⟨p, q, rfl⟩ : ∃ (p : Fin 1000) (q : Fin 512), j = ix2 p q := ⟨j 0, j 1, eq_ix2 j⟩
  obtain ⟨-, -, -, -, -, -, -, -, -, -, -, -, e0, e1⟩ := idx_facts t
  have hN : cfg0.N = 10 := N_0
  have ht : t.val < 10 := hN ▸ t.isLt
  have hp : p.val < 1000 := p.isLt
  -- the node this entry belongs to
  let r : Fin 10000 := ⟨t.val * 1000 + p.val, by omega⟩
  have hemb : ((cfg0.win 6).blk t).view.emb (ix2 p q) = ix2 r q := funext fun a => Fin.ext (by
    match a with
    | ⟨0, _⟩ => show win0_6.index t (0 : Fin 2) * 1000 + 1 * p.val = t.val * 1000 + p.val; omega
    | ⟨1, _⟩ => show win0_6.index t (1 : Fin 2) * 512 + 1 * q.val = q.val; omega)
  show k0_pay1 (F := Ideal) (iblk m c 0 t) (iblk m c 1 t) (iblk m c 2 t) (iblk m c 3 t) (iblk m c 4 t) (iblk m c 5 t) (ix2 p q)
    = result m c (((cfg0.win 6).blk t).view.emb (ix2 p q))
  rw [hemb]
  refine (tile_apply (iblk m c 0 t) (iblk m c 1 t) (iblk m c 2 t) (iblk m c 3 t) (iblk m c 4 t) (iblk m c 5 t) p q).trans ?_
  show _ = layerAt (argX m c) (neigh (F := Ideal) (argX m c) (argSrc m c) (argDst m c)) (recipRow (F := Ideal) (argDst m c)) (argW m c) (argB m c) r q
  unfold layerAt
  refine congrArg₂ max (congrArg₂ (· + ·) (congrArg₂ (· + ·) (Finset.sum_congr rfl fun k _ => ?_) (Finset.sum_congr rfl fun k _ => ?_)) ?_) rfl
  · rw [read_x m c t p k r rfl, read_wa m c t k q]
  · rw [read_n m c t p k r rfl, read_r m c t p r rfl, read_wb m c t k q]
  · exact read_b m c t q

/-- An index of the result is in point `t`'s block iff each coordinate is in the block's range on its axis. -/
theorem mem_blk (t : Fin cfg0.N) (i : S10000x512.Idx) :
    i ∈ ((cfg0.win 6).blk t).view.set ↔ ∀ a : Fin 2, win0_6.index t a * S1000x512.size a ≤ (i a).val ∧ (i a).val < win0_6.index t a * S1000x512.size a + S1000x512.size a := by
  show i ∈ ((View.whole main_v26).slice (win0_6.rect t)).set ↔ _
  rw [View.set_slice_whole, Rect.mem_set_unit]
  exact Iff.rfl

/-- Every index of the result lies in the block of the point that handles its node: point `r / 1000`. -/
theorem cover (i : S10000x512.Idx) : ∃ t : Fin cfg0.N, (cfg0.win 6).flush t = true ∧ i ∈ ((cfg0.win 6).blk t).view.set := by
  have hN : cfg0.N = 10 := N_0
  have hi0 : (i 0).val < 10000 := (i 0).isLt
  have hi1 : (i 1).val < 512 := (i 1).isLt
  let t : Fin cfg0.N := ⟨(i 0).val / 1000, by rw [hN]; omega⟩
  obtain ⟨-, -, -, -, -, -, -, -, -, -, -, -, e0, e1⟩ := idx_facts t
  have ht : t.val = (i 0).val / 1000 := rfl
  refine ⟨t, flush0_6 t, ?_⟩
  rw [mem_blk]
  intro a
  match a with
  | ⟨0, _⟩ => show win0_6.index t (0 : Fin 2) * 1000 ≤ (i 0).val ∧ (i 0).val < win0_6.index t (0 : Fin 2) * 1000 + 1000; omega
  | ⟨1, _⟩ => show win0_6.index t (1 : Fin 2) * 512 ≤ (i 1).val ∧ (i 1).val < win0_6.index t (1 : Fin 2) * 512 + 512; omega

/-- After the run the result array is the layer of the arguments. -/
theorem final (c : Dev nD) : (dats m 0 c).arrAt 6 cfg0.N = result m c :=
  (dats m 0 c).arrAt_eq_of_cover 6 (result m c) (fun t _ => flushed_eq m c t) cover

/-- The tiled program's run: it terminates with the result array at the layer of the arguments, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Sage.Tiled

end
-- ==== Proof.RefValue.lean ====
/-
  The plain program computes the same layer.

  The plain program gathers the source rows of the features, sums them onto the destination nodes, divides each
  node's sum by its in-degree clamped below at one, joins own features and neighbourhood mean side by side into a
  [10000, 1024] array, multiplies by the whole weight matrix, adds the bias and takes the positive part.  Entry by
  entry that is the layer of the tiled program: the neighbour sums and clamped degrees are the same arrays (the tiled
  program's extra narrowing and widening of the features is the identity over the extended reals); the product with the
  joined array splits into the sum over its first 512 columns — own features against the upper half of the weights — and
  over its last 512 — the mean against the lower half; and dividing by the clamped degree, which is never zero, is
  multiplying by its reciprocal.
-/
import proofs.«411510_j28991029248362_3_alg».proof.Proof.Gen.ReferenceIdeal.Read
import proofs.«411510_j28991029248362_3_alg».proof.Proof.Spec
import proofs.«411510_j28991029248362_3_alg».proof.Proof.Prologue
import Idealize.ShloMosaic.Lib.ValueIdx
import Idealize.ShloMosaic.Lib.Pipeline.Value
import Idealize.ShloMosaic.PureOps.Ideal.Laws

noncomputable section

namespace Cert.Sage.Plain

open Cert.ReferenceIdeal Cert.ReferenceIdeal.Read Idealize.ShloMosaic Idealize.ShloMosaic.ValueIdx
open Cert.Sage Cert.Sage.Entry

/-- The plain program's neighbour sums are the tiled program's: narrowing then widening the gathered features changes
    nothing over the extended reals. -/
theorem neigh_eq (x0 : (⟨S10000x512, .f32⟩ : BufTy).Contents (Elt Ideal)) (x1 x2 : (⟨S160000, .i32⟩ : BufTy).Contents (Elt Ideal)) :
    val_main_v9 (F := Ideal) x0 x1 x2 = neigh (F := Ideal) x0 x1 x2 := by
  first
    | rfl
    | (unfold val_main_v9 val_main_v8 val_main_v7 val_main_cst val_main_v6 val_main_v5 val_main_v4 val_main_v3 val_main_v2 val_main_c_0 val_main_v1
        val_main_v0 val_main_c neigh srcCol
       rfl)

/-- The plain program's clamped in-degrees are the tiled program's. -/
theorem deg_eq (x2 : (⟨S160000, .i32⟩ : BufTy).Contents (Elt Ideal)) :
    val_main_v15 (F := Ideal) x2 = degClamp (F := Ideal) x2 := by
  first
    | rfl
    | (unfold val_main_v15 val_main_v14 val_main_cst_3 val_main_v13 val_main_v12 val_main_v11 val_main_cst_2 val_main_v10 val_main_cst_1 degClamp
       rfl)

/-- A node's clamped degree is the larger of its degree and one. -/
theorem degClamp_apply (x2 : (⟨S160000, .i32⟩ : BufTy).Contents (Elt Ideal)) (r : Fin 10000) :
    ∃ d : EReal, degClamp (F := Ideal) x2 (ix1 r) = max d (Ideal.ofBits .f32 0x3F800000#32) := ⟨_, rfl⟩

/-- A quotient of arrays is taken entry by entry. -/
theorem hostDivf_apply {s : Shape} (a b : FVec Ideal s .f32) (i : s.Idx) : Host.divf a b i = Ideal.div (a i) (b i) := rfl

/-- A constant spread over an array reads, at every index, as the constant. -/
theorem splat_apply {t : Shape} (h : S_.BroadcastsInDim t (![] : Fin 0 → Fin t.rank)) (b : BitVec 32) (i : t.Idx) :
    broadcastInDim t ![] h (constant (F := Ideal) S_ .f32 b) i = Ideal.ofBits .f32 b :=
  (broadcastInDim_apply _ h _ i (fun a => a.elim0) (fun a => a.elim0)).trans rfl

/-- A node's reciprocal is one over its clamped degree. -/
theorem recipRow_apply (x2 : (⟨S160000, .i32⟩ : BufTy).Contents (Elt Ideal)) (r : Fin 10000) :
    recipRow (F := Ideal) x2 (ix1 r) = Ideal.div (Ideal.ofBits .f32 0x3F800000#32) (degClamp (F := Ideal) x2 (ix1 r)) := by
  unfold recipRow
  rw [hostDivf_apply, splat_apply]

/-- The neighbourhood mean at node `r`, feature `k`: the quotient by the clamped degree is the product with its reciprocal. -/
theorem mean_apply (x0 : (⟨S10000x512, .f32⟩ : BufTy).Contents (Elt Ideal)) (x1 x2 : (⟨S160000, .i32⟩ : BufTy).Contents (Elt Ideal))
    (r : Fin 10000) (k : Fin 512) :
    val_main_v18 (F := Ideal) x0 x1 x2 (ix2 r k) = neigh (F := Ideal) x0 x1 x2 (ix2 r k) * recipRow (F := Ideal) x2 (ix1 r) := by
  rw [val_main_v18_apply, val_main_v17_apply, val_main_v16_apply, neigh_eq, deg_eq]
  have hi : idx_main_v16 (idx_main_v17 (ix2 r k)) = ix1 r := funext fun a => Fin.ext (by
    match a with
    | ⟨0, _⟩ => rfl)
  rw [hi, recipRow_apply]
  obtain ⟨d, hd⟩ := degClamp_apply x2 r
  rw [hd]
  exact (mul_recip _ _ (clamp_ne_zero d)).symm

/-- The joined array's first 512 columns are the features. -/
theorem joined_left (x0 : (⟨S10000x512, .f32⟩ : BufTy).Contents (Elt Ideal)) (x1 x2 : (⟨S160000, .i32⟩ : BufTy).Contents (Elt Ideal))
    (r : Fin 10000) (c : Fin 512) (k : Fin 512) :
    val_main_v19 (F := Ideal) x0 x1 x2 (lidx_main_v20 (ix2 r c) (⟨k.val, by omega⟩ : Fin 1024)) = x0 (ix2 r k) := by
  unfold val_main_v19
  refine concatenate_pair_apply_left (1 : Fin S10000x1024.rank) x0 (val_main_v18 (F := Ideal) x0 x1 x2) _ _ rfl (ix2 r k) fun b => ?_
  match b with
  | ⟨0, _⟩ => rfl
  | ⟨1, _⟩ => rfl

/-- Its last 512 columns are the neighbourhood means. -/
theorem joined_right (x0 : (⟨S10000x512, .f32⟩ : BufTy).Contents (Elt Ideal)) (x1 x2 : (⟨S160000, .i32⟩ : BufTy).Contents (Elt Ideal))
    (r : Fin 10000) (c : Fin 512) (k : Fin 512) :
    val_main_v19 (F := Ideal) x0 x1 x2 (lidx_main_v20 (ix2 r c) (⟨512 + k.val, by omega⟩ : Fin 1024))
      = val_main_v18 (F := Ideal) x0 x1 x2 (ix2 r k) := by
  unfold val_main_v19
  refine concatenate_pair_apply_right (1 : Fin S10000x1024.rank) x0 (val_main_v18 (F := Ideal) x0 x1 x2) _ _ rfl rfl (ix2 r k) (fun b hb => ?_) ?_
  · match b with
    | ⟨0, _⟩ => rfl
    | ⟨1, _⟩ => exact absurd rfl hb
  · show k.val + 512 = 512 + k.val
    omega

/-- The plain program's result is the layer of the arguments. -/
theorem result_eq (x0 : (⟨S10000x512, .f32⟩ : BufTy).Contents (Elt Ideal)) (x1 x2 : (⟨S160000, .i32⟩ : BufTy).Contents (Elt Ideal))
    (x3 : (⟨S1024x512, .f32⟩ : BufTy).Contents (Elt Ideal)) (x4 : (⟨S512, .f32⟩ : BufTy).Contents (Elt Ideal)) :
    val_main_v24 (F := Ideal) x0 x1 x2 x3 x4 = layer x0 (neigh (F := Ideal) x0 x1 x2) (recipRow (F := Ideal) x2) x3 x4 := by
  funext i
  obtain ⟨r, c, rfl⟩ : ∃ (r : Fin 10000) (c : Fin 512), i = ix2 r c := ⟨i 0, i 1, eq_ix2 i⟩
  rw [layer_ix2, val_main_v24_apply, val_main_v23_apply, val_main_v20_apply, val_main_v22_apply, val_main_v21_apply,
    val_main_call0_v0_apply, val_main_call0_cst_apply, sum_halves]
  unfold layerAt
  simp only [Ideal.maximumf_def, Ideal.addf_def, Ideal.ofBits_def, Ideal.ofBits_zero_f32]
  have hw1 : ∀ k : Fin 512, ridx_main_v20 (ix2 r c) (⟨k.val, by omega⟩ : Fin 1024) = ix2 (⟨k.val, by omega⟩ : Fin 1024) c := fun k =>
    funext fun a => Fin.ext (by
      match a with
      | ⟨0, _⟩ => rfl
      | ⟨1, _⟩ => rfl)
  have hw2 : ∀ k : Fin 512, ridx_main_v20 (ix2 r c) (⟨512 + k.val, by omega⟩ : Fin 1024) = ix2 (⟨512 + k.val, by omega⟩ : Fin 1024) c := fun k =>
    funext fun a => Fin.ext (by
      match a with
      | ⟨0, _⟩ => rfl
      | ⟨1, _⟩ => rfl)
  have hb : idx_main_v21 (idx_main_v22 (ix2 r c)) = ix1 c := funext fun a => Fin.ext (by
    match a with
    | ⟨0, _⟩ => rfl)
  refine congrArg₂ max (congrArg₂ (· + ·) (congrArg₂ (· + ·) (Finset.sum_congr rfl fun k _ => ?_) (Finset.sum_congr rfl fun k _ => ?_)) ?_) rfl
  · rw [joined_left, hw1]
  · rw [joined_right, mean_apply, hw2]
  · rw [hb]

end Cert.Sage.Plain

end
-- ==== Proof.lean ====
/-
  A mean-aggregating graph layer, tiled over the nodes, against its plain statement.

  Inputs: node features `X` [10000, 512], edge endpoints `src`, `dst` [160000], weights `W` [1024, 512], bias `b` [512].
  With `N[r,·]` the sum of the feature rows `X[src e,·]` over the edges `e` whose destination is `r`, and `d[r]` the number
  of such edges clamped below at one, both programs produce
      out[r, c] = max (Σ_{k<512} X[r,k]·W[k,c] + Σ_{k<512} mean[r,k]·W[512+k,c] + b[c]) 0.
  The plain program forms mean[r,k] = N[r,k] / d[r], joins `X` and the mean into one [10000, 1024] array and multiplies
  by `W`.  The tiled program precomputes 1/d[r], and for each block of 1000 nodes multiplies the feature block by the
  upper half of `W`, the block of N[r,k]·(1/d[r]) by the lower half, and adds; it also narrows the features and weights
  to a shorter float format on the way, which over the extended reals is the identity.  The two agree at every entry
  because a sum over 1024 indices is the sum over its halves, and because d[r] ≥ 1 is never zero, so multiplying by its
  reciprocal is dividing by it (both are N[r,k]·d[r]⁻¹, at the infinities too).  No input needs to be finite for this.

  The gather of `X` along `src` and the scatter-sums along `dst` are the same operations in both programs and are carried
  through as they stand.  The three runs (termination, no fault, arguments unchanged) are the programs' frames.
-/
import proofs.«411510_j28991029248362_3_alg».proof.Defs
import proofs.«411510_j28991029248362_3_alg».proof.Proof.Gen.Kernel
import proofs.«411510_j28991029248362_3_alg».proof.Proof.Gen.Kernel.Skeleton
import proofs.«411510_j28991029248362_3_alg».proof.Proof.Gen.Kernel.Launch
import proofs.«411510_j28991029248362_3_alg».proof.Proof.Gen.Kernel.Points
import proofs.«411510_j28991029248362_3_alg».proof.Proof.Gen.Kernel.Frame
import proofs.«411510_j28991029248362_3_alg».proof.Proof.Gen.KernelIdeal
import proofs.«411510_j28991029248362_3_alg».proof.Proof.Gen.KernelIdeal.Skeleton
import proofs.«411510_j28991029248362_3_alg».proof.Proof.Gen.KernelIdeal.Launch
import proofs.«411510_j28991029248362_3_alg».proof.Proof.Gen.KernelIdeal.Points
import proofs.«411510_j28991029248362_3_alg».proof.Proof.Gen.KernelIdeal.Frame
import proofs.«411510_j28991029248362_3_alg».proof.Proof.Gen.ReferenceIdeal
import proofs.«411510_j28991029248362_3_alg».proof.Proof.Gen.Pre_finite_inputs
import proofs.«411510_j28991029248362_3_alg».proof.Proof.KernelValue
import proofs.«411510_j28991029248362_3_alg».proof.Proof.RefValue
import Idealize.ShloMosaic.Adequacy
import Idealize.ShloMosaic.Init

noncomputable section

namespace Cert.Proof

open Idealize.ShloMosaic Idealize.SL.Sem

/-- The word-level tiled program runs and leaves its arguments as they were. -/
theorem frame_tiled_words : Cert.frame_Kernel := fun m ρ _ => Cert.Kernel.Gen.frame m ρ

/-- So does the tiled program over the extended reals. -/
theorem frame_tiled : Cert.frame_KernelIdeal := fun m ρ _ => Cert.KernelIdeal.Gen.frame m ρ

/-- The plain program runs and leaves its arguments as they were: its run with the result dropped. -/
theorem frame_plain : Cert.frame_ReferenceIdeal := fun m ρ _ =>
  (θ_run Cert.ReferenceIdeal.defs _ _).mono (fun _ h c => (h c).2) (Cert.ReferenceIdeal.Value.run (F := Ideal) m ρ)

/-- Nothing of the tiled program was rewritten for its reading over the extended reals. -/
theorem preserves : Cert.preserves_Kernel_KernelIdeal := trivial

/-- From memories that agree on the five arguments both programs end with the layer of those arguments as result. -/
theorem algebraic : Cert.algebraic_KernelIdeal_ReferenceIdeal := by
  intro m ρ m' ρ' _ hagree
  refine ⟨fun c => Cert.Sage.Tiled.result m c, Cert.Sage.Tiled.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v24_eq _ _ _ _ _).trans (Cert.Sage.Plain.result_eq _ _ _ _ _)

theorem claim : Cert.Claim := ⟨Cert.Kernel.Gen.facts, Cert.KernelIdeal.Gen.facts, Cert.ReferenceIdeal.Gen.facts, Cert.Pre_finite_inputs.Gen.facts,
  frame_tiled_words, frame_tiled, frame_plain, preserves, algebraic⟩

end Cert.Proof

end
